-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2112 : Shape := ⟨2, ![8192, 2112]⟩
abbrev S8192x264 : Shape := ⟨2, ![8192, 264]⟩
abbrev S1 : Shape := ⟨1, ![1]⟩
abbrev S4096x2112 : Shape := ⟨2, ![4096, 2112]⟩
abbrev S4096x264 : Shape := ⟨2, ![4096, 264]⟩
abbrev S4096 : Shape := ⟨1, ![4096]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S8192x2112 32) (main_arg1 : IVec S8192x264 32) (main_arg2 : FVec F S1 .f32) (main_arg3 : IVec S4096x2112 32) (main_arg4 : IVec S4096x264 32) (main_arg5 : FVec F S4096 .f32) : IVec S_ 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S4096 .f32 := Host.absf main_arg5
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x2112 : Shape := ⟨2, ![8192, 2112]⟩
abbrev S8192x264 : Shape := ⟨2, ![8192, 264]⟩
abbrev S1 : Shape := ⟨1, ![1]⟩
abbrev S4096x2112 : Shape := ⟨2, ![4096, 2112]⟩
abbrev S4096x264 : Shape := ⟨2, ![4096, 264]⟩
abbrev S4096 : Shape := ⟨1, ![4096]⟩
abbrev S16 : Shape := ⟨1, ![16]⟩
abbrev S_ : Shape := ⟨0, ![]⟩
abbrev S8192x2112x1 : Shape := ⟨3, ![8192, 2112, 1]⟩
abbrev S8192x2112x2 : Shape := ⟨3, ![8192, 2112, 2]⟩
abbrev S8192x4224 : Shape := ⟨2, ![8192, 4224]⟩
abbrev S8192x4224x1 : Shape := ⟨3, ![8192, 4224, 1]⟩
abbrev S8192x264x16 : Shape := ⟨3, ![8192, 264, 16]⟩
abbrev S8192x264x1 : Shape := ⟨3, ![8192, 264, 1]⟩
abbrev S4096x2112x1 : Shape := ⟨3, ![4096, 2112, 1]⟩
abbrev S4096x2112x2 : Shape := ⟨3, ![4096, 2112, 2]⟩
abbrev S4096x4224 : Shape := ⟨2, ![4096, 4224]⟩
abbrev S4096x4224x1 : Shape := ⟨3, ![4096, 4224, 1]⟩
abbrev S4096x264x16 : Shape := ⟨3, ![4096, 264, 16]⟩
abbrev S4096x264x1 : Shape := ⟨3, ![4096, 264, 1]⟩
abbrev S1x1 : Shape := ⟨2, ![1, 1]⟩
abbrev S1x4096 : Shape := ⟨2, ![1, 4096]⟩
abbrev S8192x4096 : Shape := ⟨2, ![8192, 4096]⟩
abbrev S512x4224 : Shape := ⟨2, ![512, 4224]⟩
abbrev S2048x4224 : Shape := ⟨2, ![2048, 4224]⟩
abbrev S1x2048 : Shape := ⟨2, ![1, 2048]⟩
abbrev S512x2048 : Shape := ⟨2, ![512, 2048]⟩

abbrev nBuf : Space → Nat
  | .hbm => 82
  | .vmem => 8
  | .smem => 0
  | _ => 0

abbrev bufTy : (tb : Table) → Fin (tcTables nBuf tb) → BufTy
  | .hbm, ⟨0, _⟩ => ⟨S8192x2112, .i32⟩
  | .hbm, ⟨1, _⟩ => ⟨S8192x264, .i32⟩
  | .hbm, ⟨2, _⟩ => ⟨S1, .f32⟩
  | .hbm, ⟨3, _⟩ => ⟨S4096x2112, .i32⟩
  | .hbm, ⟨4, _⟩ => ⟨S4096x264, .i32⟩
  | .hbm, ⟨5, _⟩ => ⟨S4096, .f32⟩
  | .hbm, ⟨6, _⟩ => ⟨S16, .f32⟩
  | .hbm, ⟨7, _⟩ => ⟨S_, .i32⟩
  | .hbm, ⟨8, _⟩ => ⟨S8192x2112, .i32⟩
  | .hbm, ⟨9, _⟩ => ⟨S8192x2112, .i32⟩
  | .hbm, ⟨10, _⟩ => ⟨S_, .i32⟩
  | .hbm, ⟨11, _⟩ => ⟨S8192x2112, .i32⟩
  | .hbm, ⟨12, _⟩ => ⟨S8192x2112, .i32⟩
  | .hbm, ⟨13, _⟩ => ⟨S_, .i32⟩
  | .hbm, ⟨14, _⟩ => ⟨S8192x2112, .i32⟩
  | .hbm, ⟨15, _⟩ => ⟨S8192x2112, .i32⟩
  | .hbm, ⟨16, _⟩ => ⟨S8192x2112x1, .i32⟩
  | .hbm, ⟨17, _⟩ => ⟨S8192x2112x1, .i32⟩
  | .hbm, ⟨18, _⟩ => ⟨S8192x2112x2, .i32⟩
  | .hbm, ⟨19, _⟩ => ⟨S8192x4224, .i32⟩
  | .hbm, ⟨20, _⟩ => ⟨S_, .i32⟩
  | .hbm, ⟨21, _⟩ => ⟨S8192x4224, .i32⟩
  | .hbm, ⟨22, _⟩ => ⟨S8192x4224, .i1⟩
  | .hbm, ⟨23, _⟩ => ⟨S_, .i32⟩
  | .hbm, ⟨24, _⟩ => ⟨S8192x4224, .i32⟩
  | .hbm, ⟨25, _⟩ => ⟨S8192x4224, .i32⟩
  | .hbm, ⟨26, _⟩ => ⟨S8192x4224, .i32⟩
  | .hbm, ⟨27, _⟩ => ⟨S8192x4224x1, .i32⟩
  | .hbm, ⟨28, _⟩ => ⟨S8192x4224, .f32⟩
  | .hbm, ⟨29, _⟩ => ⟨S_, .i32⟩
  | .hbm, ⟨30, _⟩ => ⟨S8192x264, .i32⟩
  | .hbm, ⟨31, _⟩ => ⟨S8192x264, .i32⟩
  | .hbm, ⟨32, _⟩ => ⟨S8192x264, .f32⟩
  | .hbm, ⟨33, _⟩ => ⟨S_, .f32⟩
  | .hbm, ⟨34, _⟩ => ⟨S8192x264, .f32⟩
  | .hbm, ⟨35, _⟩ => ⟨S8192x264, .f32⟩
  | .hbm, ⟨36, _⟩ => ⟨S8192x264, .f32⟩
  | .hbm, ⟨37, _⟩ => ⟨S8192x264x16, .f32⟩
  | .hbm, ⟨38, _⟩ => ⟨S8192x264x1, .f32⟩
  | .hbm, ⟨39, _⟩ => ⟨S8192x264x16, .f32⟩
  | .hbm, ⟨40, _⟩ => ⟨S8192x264x16, .f32⟩
  | .hbm, ⟨41, _⟩ => ⟨S8192x4224, .f32⟩
  | .hbm, ⟨42, _⟩ => ⟨S_, .i32⟩
  | .hbm, ⟨43, _⟩ => ⟨S4096x2112, .i32⟩
  | .hbm, ⟨44, _⟩ => ⟨S4096x2112, .i32⟩
  | .hbm, ⟨45, _⟩ => ⟨S_, .i32⟩
  | .hbm, ⟨46, _⟩ => ⟨S4096x2112, .i32⟩
  | .hbm, ⟨47, _⟩ => ⟨S4096x2112, .i32⟩
  | .hbm, ⟨48, _⟩ => ⟨S_, .i32⟩
  | .hbm, ⟨49, _⟩ => ⟨S4096x2112, .i32⟩
  | .hbm, ⟨50, _⟩ => ⟨S4096x2112, .i32⟩
  | .hbm, ⟨51, _⟩ => ⟨S4096x2112x1, .i32⟩
  | .hbm, ⟨52, _⟩ => ⟨S4096x2112x1, .i32⟩
  | .hbm, ⟨53, _⟩ => ⟨S4096x2112x2, .i32⟩
  | .hbm, ⟨54, _⟩ => ⟨S4096x4224, .i32⟩
  | .hbm, ⟨55, _⟩ => ⟨S_, .i32⟩
  | .hbm, ⟨56, _⟩ => ⟨S4096x4224, .i32⟩
  | .hbm, ⟨57, _⟩ => ⟨S4096x4224, .i1⟩
  | .hbm, ⟨58, _⟩ => ⟨S_, .i32⟩
  | .hbm, ⟨59, _⟩ => ⟨S4096x4224, .i32⟩
  | .hbm, ⟨60, _⟩ => ⟨S4096x4224, .i32⟩
  | .hbm, ⟨61, _⟩ => ⟨S4096x4224, .i32⟩
  | .hbm, ⟨62, _⟩ => ⟨S4096x4224x1, .i32⟩
  | .hbm, ⟨63, _⟩ => ⟨S4096x4224, .f32⟩
  | .hbm, ⟨64, _⟩ => ⟨S_, .i32⟩
  | .hbm, ⟨65, _⟩ => ⟨S4096x264, .i32⟩
  | .hbm, ⟨66, _⟩ => ⟨S4096x264, .i32⟩
  | .hbm, ⟨67, _⟩ => ⟨S4096x264, .f32⟩
  | .hbm, ⟨68, _⟩ => ⟨S_, .f32⟩
  | .hbm, ⟨69, _⟩ => ⟨S4096x264, .f32⟩
  | .hbm, ⟨70, _⟩ => ⟨S4096x264, .f32⟩
  | .hbm, ⟨71, _⟩ => ⟨S4096x264, .f32⟩
  | .hbm, ⟨72, _⟩ => ⟨S4096x264x16, .f32⟩
  | .hbm, ⟨73, _⟩ => ⟨S4096x264x1, .f32⟩
  | .hbm, ⟨74, _⟩ => ⟨S4096x264x16, .f32⟩
  | .hbm, ⟨75, _⟩ => ⟨S4096x264x16, .f32⟩
  | .hbm, ⟨76, _⟩ => ⟨S4096x4224, .f32⟩
  | .hbm, ⟨77, _⟩ => ⟨S8192x4224, .bf16⟩
  | .hbm, ⟨78, _⟩ => ⟨S4096x4224, .bf16⟩
  | .hbm, ⟨79, _⟩ => ⟨S1x1, .f32⟩
  | .hbm, ⟨80, _⟩ => ⟨S1x4096, .f32⟩
  | .hbm, ⟨81, _⟩ => ⟨S8192x4096, .f32⟩
  | .local _ .vmem, ⟨0, _⟩ => ⟨S512x4224, .bf16⟩
  | .local _ .vmem, ⟨1, _⟩ => ⟨S512x4224, .bf16⟩
  | .local _ .vmem, ⟨2, _⟩ => ⟨S2048x4224, .bf16⟩
  | .local _ .vmem, ⟨3, _⟩ => ⟨S1x1, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_c_1 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_2 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_c_4 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_cst_5 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_6 : Ref sig .tc := ⟨.hbm, 42, rfl⟩
abbrev main_call0_v28 : Ref sig .tc := ⟨.hbm, 43, rfl⟩
abbrev main_call0_v29 : Ref sig .tc := ⟨.hbm, 44, rfl⟩
abbrev main_call0_c_7 : Ref sig .tc := ⟨.hbm, 45, rfl⟩
abbrev main_call0_v30 : Ref sig .tc := ⟨.hbm, 46, rfl⟩
abbrev main_call0_v31 : Ref sig .tc := ⟨.hbm, 47, rfl⟩
abbrev main_call0_c_8 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_c_9 : Ref sig .tc := ⟨.hbm, 55, rfl⟩
abbrev main_call0_v38 : Ref sig .tc := ⟨.hbm, 56, rfl⟩
abbrev main_call0_v39 : Ref sig .tc := ⟨.hbm, 57, rfl⟩
abbrev main_call0_c_10 : Ref sig .tc := ⟨.hbm, 58, rfl⟩
abbrev main_call0_v40 : Ref sig .tc := ⟨.hbm, 59, rfl⟩
abbrev main_call0_v41 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_c_11 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_cst_12 : Ref sig .tc := ⟨.hbm, 68, rfl⟩
abbrev main_call0_v48 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_v56 : Ref sig .tc := ⟨.hbm, 77, rfl⟩
abbrev main_call0_v57 : Ref sig .tc := ⟨.hbm, 78, rfl⟩
abbrev main_call0_v58 : Ref sig .tc := ⟨.hbm, 79, rfl⟩
abbrev main_call0_v59 : Ref sig .tc := ⟨.hbm, 80, rfl⟩
abbrev main_v0 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8192x2112 : S_.BroadcastsInDim S8192x2112 (![] : Fin 0 → Fin S8192x2112.rank)
  bcast_S8192x2112_S8192x2112x1_0_1 : S8192x2112.BroadcastsInDim S8192x2112x1 (![0, 1] : Fin 2 → Fin S8192x2112x1.rank)
  concatenates_S8192x2112x1_S8192x2112x1_S8192x2112x2_d2 : Shape.Concatenates [S8192x2112x1, S8192x2112x1] S8192x2112x2 2
  shapeCasts_S8192x2112x2_S8192x4224 : S8192x2112x2.ShapeCasts S8192x4224
  bcast_S_S8192x4224 : S_.BroadcastsInDim S8192x4224 (![] : Fin 0 → Fin S8192x4224.rank)
  bcast_S8192x4224_S8192x4224x1_0_1 : S8192x4224.BroadcastsInDim S8192x4224x1 (![0, 1] : Fin 2 → Fin S8192x4224x1.rank)
  bcast_S_S8192x264 : S_.BroadcastsInDim S8192x264 (![] : Fin 0 → Fin S8192x264.rank)
  shapeCasts_S8192x4224_S8192x264x16 : S8192x4224.ShapeCasts S8192x264x16
  bcast_S8192x264_S8192x264x1_0_1 : S8192x264.BroadcastsInDim S8192x264x1 (![0, 1] : Fin 2 → Fin S8192x264x1.rank)
  bcast_S8192x264x1_S8192x264x16_0_1_2 : S8192x264x1.BroadcastsInDim S8192x264x16 (![0, 1, 2] : Fin 3 → Fin S8192x264x16.rank)
  shapeCasts_S8192x264x16_S8192x4224 : S8192x264x16.ShapeCasts S8192x4224
  bcast_S_S4096x2112 : S_.BroadcastsInDim S4096x2112 (![] : Fin 0 → Fin S4096x2112.rank)
  bcast_S4096x2112_S4096x2112x1_0_1 : S4096x2112.BroadcastsInDim S4096x2112x1 (![0, 1] : Fin 2 → Fin S4096x2112x1.rank)
  concatenates_S4096x2112x1_S4096x2112x1_S4096x2112x2_d2 : Shape.Concatenates [S4096x2112x1, S4096x2112x1] S4096x2112x2 2
  shapeCasts_S4096x2112x2_S4096x4224 : S4096x2112x2.ShapeCasts S4096x4224
  bcast_S_S4096x4224 : S_.BroadcastsInDim S4096x4224 (![] : Fin 0 → Fin S4096x4224.rank)
  bcast_S4096x4224_S4096x4224x1_0_1 : S4096x4224.BroadcastsInDim S4096x4224x1 (![0, 1] : Fin 2 → Fin S4096x4224x1.rank)
  bcast_S_S4096x264 : S_.BroadcastsInDim S4096x264 (![] : Fin 0 → Fin S4096x264.rank)
  shapeCasts_S4096x4224_S4096x264x16 : S4096x4224.ShapeCasts S4096x264x16
  bcast_S4096x264_S4096x264x1_0_1 : S4096x264.BroadcastsInDim S4096x264x1 (![0, 1] : Fin 2 → Fin S4096x264x1.rank)
  bcast_S4096x264x1_S4096x264x16_0_1_2 : S4096x264x1.BroadcastsInDim S4096x264x16 (![0, 1, 2] : Fin 3 → Fin S4096x264x16.rank)
  shapeCasts_S4096x264x16_S4096x4224 : S4096x264x16.ShapeCasts S4096x4224
  bitsLt_bf16_f32 : FTy.bits .bf16 < FTy.bits .f32
  shapeCasts_S1_S1x1 : S1.ShapeCasts S1x1
  shapeCasts_S4096_S1x4096 : S4096.ShapeCasts S1x4096
  inb_S512x4224_S512x4224_0_0 : ∀ a, (![0, 0] : Fin 2 → Nat) a + S512x4224.size a ≤ S512x4224.size a
  h_S512x4224 : 0 < S512x4224.numel
  shapeCasts_S512x4224_S512x4224 : S512x4224.ShapeCasts S512x4224
  inb_S2048x4224_S2048x4224_0_0 : ∀ a, (![0, 0] : Fin 2 → Nat) a + S2048x4224.size a ≤ S2048x4224.size a
  h_S2048x4224 : 0 < S2048x4224.numel
  shapeCasts_S2048x4224_S2048x4224 : S2048x4224.ShapeCasts S2048x4224
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  gather_S16_S8192x4224x1_S8192x4224_n_0_n_n_0_2_1_wf : GatherDims.WF S16 S8192x4224x1 S8192x4224 [] [0] [] [0] [] 2 ![1]
  gather_S16_S4096x4224x1_S4096x4224_n_0_n_n_0_2_1_wf : GatherDims.WF S16 S4096x4224x1 S4096x4224 [] [0] [] [0] [] 2 ![1]
  dot_S512x4224_S2048x4224_S512x2048_1_1_0_0_n_n_wf : DotDims.WF S512x4224 S2048x4224 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4224.size a ≤ S8192x4224.size a
  hwx0_0 : ∀ i : grid0.Coords, EltTy.bits .bf16 = 32 ∨ (Rect.block (s := S8192x4224) S512x4224.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4224.size a ≤ S4096x4224.size a
  hwx0_1 : ∀ i : grid0.Coords, EltTy.bits .bf16 = 32 ∨ (Rect.block (s := S4096x4224) S2048x4224.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x4096.size a
  hwx0_4 : ∀ i : grid0.Coords, EltTy.bits .f32 = 32 ∨ (Rect.block (s := S8192x4096) S512x2048.size (cc0_transform_4 i) (hinb0_4 i)).WholeWords (EltTy.packing .f32)

variable [Facts₀]

def gather_S16_S8192x4224x1_S8192x4224_n_0_n_n_0_2_1 : GatherDims S16 S8192x4224x1 S8192x4224 where
  offsetDims := []
  collapsedSliceDims := [0]
  operandBatchingDims := []
  startIndicesBatchingDims := []
  startIndexMap := [0]
  indexVectorDim := 2
  sliceSizes := ![1]
  wf := gather_S16_S8192x4224x1_S8192x4224_n_0_n_n_0_2_1_wf
def gather_S16_S4096x4224x1_S4096x4224_n_0_n_n_0_2_1 : GatherDims S16 S4096x4224x1 S4096x4224 where
  offsetDims := []
  collapsedSliceDims := [0]
  operandBatchingDims := []
  startIndicesBatchingDims := []
  startIndexMap := [0]
  indexVectorDim := 2
  sliceSizes := ![1]
  wf := gather_S16_S4096x4224x1_S4096x4224_n_0_n_n_0_2_1_wf
def dot_S512x4224_S2048x4224_S512x2048_1_1_0_0_n_n : DotDims S512x4224 S2048x4224 S512x2048 where
  lhsContracting := [1]
  rhsContracting := [1]
  lhsNonContracting := [0]
  rhsNonContracting := [0]
  lhsBatch := []
  rhsBatch := []
  wf := dot_S512x4224_S2048x4224_S512x2048_1_1_0_0_n_n_wf

abbrev win0_0 : Pipeline.Window sig grid0 :=
  Pipeline.Window.ofSpec (Memref.whole main_call0_v56) S512x4224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v57) S2048x4224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v58) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v59) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2112 : Shape := ⟨2, ![8192, 2112]⟩
abbrev S8192x264 : Shape := ⟨2, ![8192, 264]⟩
abbrev S1 : Shape := ⟨1, ![1]⟩
abbrev S4096x2112 : Shape := ⟨2, ![4096, 2112]⟩
abbrev S4096x264 : Shape := ⟨2, ![4096, 264]⟩
abbrev S4096 : Shape := ⟨1, ![4096]⟩
abbrev S16 : Shape := ⟨1, ![16]⟩
abbrev S_ : Shape := ⟨0, ![]⟩
abbrev S8192x2112x1 : Shape := ⟨3, ![8192, 2112, 1]⟩
abbrev S8192x2112x2 : Shape := ⟨3, ![8192, 2112, 2]⟩
abbrev S8192x4224 : Shape := ⟨2, ![8192, 4224]⟩
abbrev S8192x4224x1 : Shape := ⟨3, ![8192, 4224, 1]⟩
abbrev S8192x264x16 : Shape := ⟨3, ![8192, 264, 16]⟩
abbrev S8192x264x1 : Shape := ⟨3, ![8192, 264, 1]⟩
abbrev S4096x2112x1 : Shape := ⟨3, ![4096, 2112, 1]⟩
abbrev S4096x2112x2 : Shape := ⟨3, ![4096, 2112, 2]⟩
abbrev S4096x4224 : Shape := ⟨2, ![4096, 4224]⟩
abbrev S4096x4224x1 : Shape := ⟨3, ![4096, 4224, 1]⟩
abbrev S4096x264x16 : Shape := ⟨3, ![4096, 264, 16]⟩
abbrev S4096x264x1 : Shape := ⟨3, ![4096, 264, 1]⟩
abbrev S8192x4096 : Shape := ⟨2, ![8192, 4096]⟩
abbrev S1x4096 : Shape := ⟨2, ![1, 4096]⟩

abbrev nBuf : Space → Nat
  | .hbm => 84
  | .vmem => 0
  | .smem => 0
  | _ => 0

abbrev bufTy : (tb : Table) → Fin (tcTables nBuf tb) → BufTy
  | .hbm, ⟨0, _⟩ => ⟨S8192x2112, .i32⟩
  | .hbm, ⟨1, _⟩ => ⟨S8192x264, .i32⟩
  | .hbm, ⟨2, _⟩ => ⟨S1, .f32⟩
  | .hbm, ⟨3, _⟩ => ⟨S4096x2112, .i32⟩
  | .hbm, ⟨4, _⟩ => ⟨S4096x264, .i32⟩
  | .hbm, ⟨5, _⟩ => ⟨S4096, .f32⟩
  | .hbm, ⟨6, _⟩ => ⟨S16, .f32⟩
  | .hbm, ⟨7, _⟩ => ⟨S_, .i32⟩
  | .hbm, ⟨8, _⟩ => ⟨S8192x2112, .i32⟩
  | .hbm, ⟨9, _⟩ => ⟨S8192x2112, .i32⟩
  | .hbm, ⟨10, _⟩ => ⟨S_, .i32⟩
  | .hbm, ⟨11, _⟩ => ⟨S8192x2112, .i32⟩
  | .hbm, ⟨12, _⟩ => ⟨S8192x2112, .i32⟩
  | .hbm, ⟨13, _⟩ => ⟨S_, .i32⟩
  | .hbm, ⟨14, _⟩ => ⟨S8192x2112, .i32⟩
  | .hbm, ⟨15, _⟩ => ⟨S8192x2112, .i32⟩
  | .hbm, ⟨16, _⟩ => ⟨S8192x2112x1, .i32⟩
  | .hbm, ⟨17, _⟩ => ⟨S8192x2112x1, .i32⟩
  | .hbm, ⟨18, _⟩ => ⟨S8192x2112x2, .i32⟩
  | .hbm, ⟨19, _⟩ => ⟨S8192x4224, .i32⟩
  | .hbm, ⟨20, _⟩ => ⟨S_, .i32⟩
  | .hbm, ⟨21, _⟩ => ⟨S8192x4224, .i32⟩
  | .hbm, ⟨22, _⟩ => ⟨S8192x4224, .i1⟩
  | .hbm, ⟨23, _⟩ => ⟨S_, .i32⟩
  | .hbm, ⟨24, _⟩ => ⟨S8192x4224, .i32⟩
  | .hbm, ⟨25, _⟩ => ⟨S8192x4224, .i32⟩
  | .hbm, ⟨26, _⟩ => ⟨S8192x4224, .i32⟩
  | .hbm, ⟨27, _⟩ => ⟨S8192x4224x1, .i32⟩
  | .hbm, ⟨28, _⟩ => ⟨S8192x4224, .f32⟩
  | .hbm, ⟨29, _⟩ => ⟨S_, .i32⟩
  | .hbm, ⟨30, _⟩ => ⟨S8192x264, .i32⟩
  | .hbm, ⟨31, _⟩ => ⟨S8192x264, .i32⟩
  | .hbm, ⟨32, _⟩ => ⟨S8192x264, .f32⟩
  | .hbm, ⟨33, _⟩ => ⟨S_, .f32⟩
  | .hbm, ⟨34, _⟩ => ⟨S8192x264, .f32⟩
  | .hbm, ⟨35, _⟩ => ⟨S8192x264, .f32⟩
  | .hbm, ⟨36, _⟩ => ⟨S8192x264, .f32⟩
  | .hbm, ⟨37, _⟩ => ⟨S8192x264x16, .f32⟩
  | .hbm, ⟨38, _⟩ => ⟨S8192x264x1, .f32⟩
  | .hbm, ⟨39, _⟩ => ⟨S8192x264x16, .f32⟩
  | .hbm, ⟨40, _⟩ => ⟨S8192x264x16, .f32⟩
  | .hbm, ⟨41, _⟩ => ⟨S8192x4224, .f32⟩
  | .hbm, ⟨42, _⟩ => ⟨S_, .i32⟩
  | .hbm, ⟨43, _⟩ => ⟨S4096x2112, .i32⟩
  | .hbm, ⟨44, _⟩ => ⟨S4096x2112, .i32⟩
  | .hbm, ⟨45, _⟩ => ⟨S_, .i32⟩
  | .hbm, ⟨46, _⟩ => ⟨S4096x2112, .i32⟩
  | .hbm, ⟨47, _⟩ => ⟨S4096x2112, .i32⟩
  | .hbm, ⟨48, _⟩ => ⟨S_, .i32⟩
  | .hbm, ⟨49, _⟩ => ⟨S4096x2112, .i32⟩
  | .hbm, ⟨50, _⟩ => ⟨S4096x2112, .i32⟩
  | .hbm, ⟨51, _⟩ => ⟨S4096x2112x1, .i32⟩
  | .hbm, ⟨52, _⟩ => ⟨S4096x2112x1, .i32⟩
  | .hbm, ⟨53, _⟩ => ⟨S4096x2112x2, .i32⟩
  | .hbm, ⟨54, _⟩ => ⟨S4096x4224, .i32⟩
  | .hbm, ⟨55, _⟩ => ⟨S_, .i32⟩
  | .hbm, ⟨56, _⟩ => ⟨S4096x4224, .i32⟩
  | .hbm, ⟨57, _⟩ => ⟨S4096x4224, .i1⟩
  | .hbm, ⟨58, _⟩ => ⟨S_, .i32⟩
  | .hbm, ⟨59, _⟩ => ⟨S4096x4224, .i32⟩
  | .hbm, ⟨60, _⟩ => ⟨S4096x4224, .i32⟩
  | .hbm, ⟨61, _⟩ => ⟨S4096x4224, .i32⟩
  | .hbm, ⟨62, _⟩ => ⟨S4096x4224x1, .i32⟩
  | .hbm, ⟨63, _⟩ => ⟨S4096x4224, .f32⟩
  | .hbm, ⟨64, _⟩ => ⟨S_, .i32⟩
  | .hbm, ⟨65, _⟩ => ⟨S4096x264, .i32⟩
  | .hbm, ⟨66, _⟩ => ⟨S4096x264, .i32⟩
  | .hbm, ⟨67, _⟩ => ⟨S4096x264, .f32⟩
  | .hbm, ⟨68, _⟩ => ⟨S_, .f32⟩
  | .hbm, ⟨69, _⟩ => ⟨S4096x264, .f32⟩
  | .hbm, ⟨70, _⟩ => ⟨S4096x264, .f32⟩
  | .hbm, ⟨71, _⟩ => ⟨S4096x264, .f32⟩
  | .hbm, ⟨72, _⟩ => ⟨S4096x264x16, .f32⟩
  | .hbm, ⟨73, _⟩ => ⟨S4096x264x1, .f32⟩
  | .hbm, ⟨74, _⟩ => ⟨S4096x264x16, .f32⟩
  | .hbm, ⟨75, _⟩ => ⟨S4096x264x16, .f32⟩
  | .hbm, ⟨76, _⟩ => ⟨S4096x4224, .f32⟩
  | .hbm, ⟨77, _⟩ => ⟨S_, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S1x4096, .f32⟩
  | .hbm, ⟨82, _⟩ => ⟨S8192x4096, .f32⟩
  | .hbm, ⟨83, _⟩ => ⟨S8192x4096, .f32⟩
  | _, _ => ⟨S8192x2112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  bcast_S_S8192x2112 : S_.BroadcastsInDim S8192x2112 (![] : Fin 0 → Fin S8192x2112.rank)
  bcast_S8192x2112_S8192x2112x1_0_1 : S8192x2112.BroadcastsInDim S8192x2112x1 (![0, 1] : Fin 2 → Fin S8192x2112x1.rank)
  concatenates_S8192x2112x1_S8192x2112x1_S8192x2112x2_d2 : Shape.Concatenates [S8192x2112x1, S8192x2112x1] S8192x2112x2 2
  shapeCasts_S8192x2112x2_S8192x4224 : S8192x2112x2.ShapeCasts S8192x4224
  bcast_S_S8192x4224 : S_.BroadcastsInDim S8192x4224 (![] : Fin 0 → Fin S8192x4224.rank)
  bcast_S8192x4224_S8192x4224x1_0_1 : S8192x4224.BroadcastsInDim S8192x4224x1 (![0, 1] : Fin 2 → Fin S8192x4224x1.rank)
  bcast_S_S8192x264 : S_.BroadcastsInDim S8192x264 (![] : Fin 0 → Fin S8192x264.rank)
  shapeCasts_S8192x4224_S8192x264x16 : S8192x4224.ShapeCasts S8192x264x16
  bcast_S8192x264_S8192x264x1_0_1 : S8192x264.BroadcastsInDim S8192x264x1 (![0, 1] : Fin 2 → Fin S8192x264x1.rank)
  bcast_S8192x264x1_S8192x264x16_0_1_2 : S8192x264x1.BroadcastsInDim S8192x264x16 (![0, 1, 2] : Fin 3 → Fin S8192x264x16.rank)
  shapeCasts_S8192x264x16_S8192x4224 : S8192x264x16.ShapeCasts S8192x4224
  bcast_S_S4096x2112 : S_.BroadcastsInDim S4096x2112 (![] : Fin 0 → Fin S4096x2112.rank)
  bcast_S4096x2112_S4096x2112x1_0_1 : S4096x2112.BroadcastsInDim S4096x2112x1 (![0, 1] : Fin 2 → Fin S4096x2112x1.rank)
  concatenates_S4096x2112x1_S4096x2112x1_S4096x2112x2_d2 : Shape.Concatenates [S4096x2112x1, S4096x2112x1] S4096x2112x2 2
  shapeCasts_S4096x2112x2_S4096x4224 : S4096x2112x2.ShapeCasts S4096x4224
  bcast_S_S4096x4224 : S_.BroadcastsInDim S4096x4224 (![] : Fin 0 → Fin S4096x4224.rank)
  bcast_S4096x4224_S4096x4224x1_0_1 : S4096x4224.BroadcastsInDim S4096x4224x1 (![0, 1] : Fin 2 → Fin S4096x4224x1.rank)
  bcast_S_S4096x264 : S_.BroadcastsInDim S4096x264 (![] : Fin 0 → Fin S4096x264.rank)
  shapeCasts_S4096x4224_S4096x264x16 : S4096x4224.ShapeCasts S4096x264x16
  bcast_S4096x264_S4096x264x1_0_1 : S4096x264.BroadcastsInDim S4096x264x1 (![0, 1] : Fin 2 → Fin S4096x264x1.rank)
  bcast_S4096x264x1_S4096x264x16_0_1_2 : S4096x264x1.BroadcastsInDim S4096x264x16 (![0, 1, 2] : Fin 3 → Fin S4096x264x16.rank)
  shapeCasts_S4096x264x16_S4096x4224 : S4096x264x16.ShapeCasts S4096x4224
  shapeCasts_S1_S_ : S1.ShapeCasts S_
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S16_S8192x4224x1_S8192x4224_n_0_n_n_0_2_1_wf : GatherDims.WF S16 S8192x4224x1 S8192x4224 [] [0] [] [0] [] 2 ![1]
  gather_S16_S4096x4224x1_S4096x4224_n_0_n_n_0_2_1_wf : GatherDims.WF S16 S4096x4224x1 S4096x4224 [] [0] [] [0] [] 2 ![1]
  dot_S8192x4224_S4096x4224_S8192x4096_1_1_0_0_n_n_wf : DotDims.WF S8192x4224 S4096x4224 S8192x4096 [1] [1] [0] [0] [] []

variable [Facts₀]

def gather_S16_S8192x4224x1_S8192x4224_n_0_n_n_0_2_1 : GatherDims S16 S8192x4224x1 S8192x4224 where
  offsetDims := []
  collapsedSliceDims := [0]
  operandBatchingDims := []
  startIndicesBatchingDims := []
  startIndexMap := [0]
  indexVectorDim := 2
  sliceSizes := ![1]
  wf := gather_S16_S8192x4224x1_S8192x4224_n_0_n_n_0_2_1_wf
def gather_S16_S4096x4224x1_S4096x4224_n_0_n_n_0_2_1 : GatherDims S16 S4096x4224x1 S4096x4224 where
  offsetDims := []
  collapsedSliceDims := [0]
  operandBatchingDims := []
  startIndicesBatchingDims := []
  startIndexMap := [0]
  indexVectorDim := 2
  sliceSizes := ![1]
  wf := gather_S16_S4096x4224x1_S4096x4224_n_0_n_n_0_2_1_wf
def dot_S8192x4224_S4096x4224_S8192x4096_1_1_0_0_n_n : DotDims S8192x4224 S4096x4224 S8192x4096 where
  lhsContracting := [1]
  rhsContracting := [1]
  lhsNonContracting := [0]
  rhsNonContracting := [0]
  lhsBatch := []
  rhsBatch := []
  wf := dot_S8192x4224_S4096x4224_S8192x4096_1_1_0_0_n_n_wf

class Facts : Prop extends Facts₀ where

variable [Facts]
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.KernelBlock.lean ====
/-
  One grid point of the idealized kernel, entry by entry: from a block of 512 rows of the left operand, a block of 2048
  rows of the right operand (rows of length 4224), the one scale entry and 2048 bias entries, the body stores

      entry (p, q)  =  (sum over k of left (p, k) * right (q, k)) * scale  +  bias q.

  The matrix product accumulates into the zero array and contracts both operands on their last axis; on the extended
  reals the operands' float format does not matter.
-/
import proofs.«428095_j4475355922946_2_alg».proof.Proof.Gen.KernelIdeal.Skeleton
import proofs.«428095_j4475355922946_2_alg».proof.Proof.LibTransposedRhs
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The printed record of dimension numbers is that of a product contracting both operands on their last axis. -/
theorem dims_eq : dot_S512x4224_S2048x4224_S512x2048_1_1_0_0_n_n = DotDims.transposedRhs 512 4224 2048 := rfl

/-- The entry taken out of a one-by-one array at position (0, 0) is its one entry. -/
theorem extractAt_zero_zero {α : Type} (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) := by
  unfold extractAt
  exact congrArg x (funext fun a => Fin.ext (by match a with | ⟨0, _⟩ => rfl | ⟨1, _⟩ => rfl))

/-- The stored value at entry (p, q) of the block. -/
theorem payload_apply (x0 : Vec Ideal S512x4224 .bf16) (x1 : Vec Ideal S2048x4224 .bf16) (x2 : Vec Ideal S1x1 .f32)
    (x3 : Vec Ideal S1x2048 .f32) (p : Fin 512) (q : Fin 2048) :
    k0_pay1 x0 x1 x2 x3 (ix2 p q)
      = (∑ k : Fin 4224, (x0 (ix2 p k) : EReal) * (x1 (ix2 q k) : EReal)) * (x2 (ix2 (0 : Fin 1) (0 : Fin 1)) : EReal)
        + (x3 (ix2 (0 : Fin 1) q) : EReal) := by
  unfold k0_pay1
  rw [addf_apply, mulf_apply, broadcast_apply, shapeCast_self, shapeCast_self, shapeCast_self, dims_eq,
    Cert.LibTransposedRhs.matmul_transposedRhs_zero_any, broadcastTo_1b_ab_apply, extractAt_zero_zero]

end Cert.KernelIdeal.Block

end
-- ==== Proof.ScaledProduct.lean ====
/-
  The function both programs compute, entry by entry, on the extended reals: for a left operand A with rows of length K,
  a right operand B with rows of the same length, one scale s and a bias vector b,

      entry (r, j)  =  s * (sum over k of A (r, k) * B (j, k))  +  b j,

  every row of A against every row of B.
-/
import Idealize.ShloMosaic.PureOps.Ideal
import Idealize.ShloMosaic.Lib.ValueIdx

noncomputable section

namespace Cert.ScaledProduct

open Idealize.ShloMosaic Idealize.ShloMosaic.ValueIdx

variable {M K N : Nat}

/-- Entry (r, j) of scale times A times the transpose of B, plus the bias of column j. -/
def entry (A : (⟨2, ![M, K]⟩ : Shape).Idx → EReal) (B : (⟨2, ![N, K]⟩ : Shape).Idx → EReal) (s : EReal)
    (b : (⟨1, ![N]⟩ : Shape).Idx → EReal) (r : Fin M) (j : Fin N) : EReal :=
  s * (∑ k : Fin K, A (ix2 r k) * B (ix2 j k)) + b (ix1 j)

/-- The whole array of those entries. -/
def array (A : (⟨2, ![M, K]⟩ : Shape).Idx → EReal) (B : (⟨2, ![N, K]⟩ : Shape).Idx → EReal) (s : EReal)
    (b : (⟨1, ![N]⟩ : Shape).Idx → EReal) : (⟨2, ![M, N]⟩ : Shape).Idx → EReal :=
  fun i => entry A B s b (i 0) (i 1)

theorem array_apply (A : (⟨2, ![M, K]⟩ : Shape).Idx → EReal) (B : (⟨2, ![N, K]⟩ : Shape).Idx → EReal) (s : EReal)
    (b : (⟨1, ![N]⟩ : Shape).Idx → EReal) (r : Fin M) (j : Fin N) :
    array A B s b (ix2 r j) = entry A B s b r j := rfl

/-- The same entry with the scale multiplied from the right, as a kernel that scales its accumulator writes it:
    multiplication of extended reals is commutative. -/
theorem entry_eq_mul_right (A : (⟨2, ![M, K]⟩ : Shape).Idx → EReal) (B : (⟨2, ![N, K]⟩ : Shape).Idx → EReal) (s : EReal)
    (b : (⟨1, ![N]⟩ : Shape).Idx → EReal) (r : Fin M) (j : Fin N) :
    (∑ k : Fin K, A (ix2 r k) * B (ix2 j k)) * s + b (ix1 j) = entry A B s b r j := by
  unfold entry
  rw [mul_comm]

end Cert.ScaledProduct

end
-- ==== Proof.KernelArray.lean ====
/-
  The idealized kernel's output array after the run, as one function of the four arrays its region reads.

  The grid has 2 x 16 points; point (nb, mb) reads rows 512 mb .. 512 mb + 511 of the left operand, rows
  2048 nb .. 2048 nb + 2047 of the right operand, the scale entry and bias entries 2048 nb .. 2048 nb + 2047, and writes
  the 512 x 2048 block of the output at block position (mb, nb). An entry of that block is the entry of
  scale * left * right^T + bias at the block's offset, so every point writes a block of one whole-array function, and
  the 32 blocks tile the 8192 x 4096 output: row r, column j lies in the block of point (j / 2048, r / 512).
-/
import proofs.«428095_j4475355922946_2_alg».proof.Proof.Gen.KernelIdeal.Value
import proofs.«428095_j4475355922946_2_alg».proof.Proof.KernelBlock
import proofs.«428095_j4475355922946_2_alg».proof.Proof.ScaledProduct

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four arrays the region reads, as it finds them -/

/-- The left operand: 8192 rows of length 4224. -/
abbrev lhs (c : Dev nD) : Vec Ideal S8192x4224 .bf16 := V m c main_call0_v56
/-- The right operand: 4096 rows of length 4224. -/
abbrev rhs (c : Dev nD) : Vec Ideal S4096x4224 .bf16 := V m c main_call0_v57
/-- The scale, a one-by-one array. -/
abbrev scl (c : Dev nD) : Vec Ideal S1x1 .f32 := V m c main_call0_v58
/-- The bias, one row of 4096 entries. -/
abbrev brow (c : Dev nD) : Vec Ideal S1x4096 .f32 := V m c main_call0_v59

/-- What the output array ends holding: scale * left * right^T + bias, entry by entry. -/
def target (c : Dev nD) : S8192x4096.Idx → EReal :=
  Cert.ScaledProduct.array (lhs m c) (rhs m c) (scl m c (ix2 (0 : Fin 1) (0 : Fin 1))) (fun j => brow m c (ix2 (0 : Fin 1) (j 0)))

/-- The blocks of the four arrays that point t reads. -/
abbrev lhsBlk (c : Dev nD) (t : Fin cfg0.N) : Vec Ideal S512x4224 .bf16 := iblk m c 0 t
abbrev rhsBlk (c : Dev nD) (t : Fin cfg0.N) : Vec Ideal S2048x4224 .bf16 := iblk m c 1 t
abbrev sclBlk (c : Dev nD) (t : Fin cfg0.N) : Vec Ideal S1x1 .f32 := iblk m c 2 t
abbrev browBlk (c : Dev nD) (t : Fin cfg0.N) : Vec Ideal S1x2048 .f32 := iblk m c 3 t

/-! ## Where each point's blocks sit -/

theorem hz : (![0, 0] : Fin 2 → Nat) = fun _ => 0 := funext fun a => by fin_cases a <;> rfl

/-- The block positions at a point, decided over the 32 points: the left operand's row block is the output's row block,
    the right operand's row block and the bias's column block are the output's column block, the operands' rows are
    whole, the scale is the one block; the output's block position is inside 16 x 2. -/
theorem idx_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = win0_4.index t (1 : Fin 2)
    ∧ win0_4.index t (0 : Fin 2) ≤ 15
    ∧ win0_4.index t (1 : Fin 2) ≤ 1 :=
  (by decide +kernel : ∀ t : Fin grid0.N, _)

/-- Every block position of the output is some point's. -/
theorem idx_onto : ∀ (q0 : Fin 16) (q1 : Fin 2), ∃ t : Fin cfg0.N, win0_4.index t = ![q0.val, q1.val] :=
  (by decide +kernel : ∀ (q0 : Fin 16) (q1 : Fin 2), ∃ t : Fin grid0.N, win0_4.index t = ![q0.val, q1.val])

/-! ## The blocks a point reads, entry by entry -/

/-- The row of the output array that row p of point t's block is. -/
def rowAt (t : Fin cfg0.N) (p : Fin 512) : Fin 8192 :=
  ⟨win0_4.index t (0 : Fin 2) * 512 + p.val, by have := (idx_facts t).2.2.2.2.2.2.2.2.1; have := p.isLt; omega⟩
/-- The column of the output array that column q of point t's block is. -/
def colAt (t : Fin cfg0.N) (q : Fin 2048) : Fin 4096 :=
  ⟨win0_4.index t (1 : Fin 2) * 2048 + q.val, by have := (idx_facts t).2.2.2.2.2.2.2.2.2; have := q.isLt; omega⟩

/-- Entry (p, q) of point t's output block sits in the array at (rowAt t p, colAt t q). -/
theorem out_emb (t : Fin cfg0.N) (p : Fin 512) (q : Fin 2048) :
    ((cfg0.win 4).blk t).view.emb (ix2 p q) = ix2 (rowAt t p) (colAt t q) := by
  funext a; apply Fin.ext
  match a with
  | ⟨0, _⟩ => show win0_4.index t (0 : Fin 2) * 512 + 1 * p.val = win0_4.index t (0 : Fin 2) * 512 + p.val; omega
  | ⟨1, _⟩ => show win0_4.index t (1 : Fin 2) * 2048 + 1 * q.val = win0_4.index t (1 : Fin 2) * 2048 + q.val; omega

/-- Row p of the left block is row (rowAt t p) of the left operand. -/
theorem lhsBlk_apply (c : Dev nD) (t : Fin cfg0.N) (p : Fin 512) (k : Fin 4224) :
    (lhsBlk m c t (ix2 p k) : EReal) = lhs m c (ix2 (rowAt t p) k) := by
  obtain ⟨e0, e1, -⟩ := idx_facts t
  show V m c main_call0_v56 (((cfg0.win 0).blk t).view.emb (ix2 p k)) = V m c main_call0_v56 (ix2 (rowAt t p) k)
  refine congrArg (V m c main_call0_v56) (funext fun a => Fin.ext ?_)
  match a with
  | ⟨0, _⟩ => show win0_0.index t (0 : Fin 2) * 512 + 1 * p.val = win0_4.index t (0 : Fin 2) * 512 + p.val; omega
  | ⟨1, _⟩ => show win0_0.index t (1 : Fin 2) * 4224 + 1 * k.val = k.val; omega

/-- Row q of the right block is row (colAt t q) of the right operand. -/
theorem rhsBlk_apply (c : Dev nD) (t : Fin cfg0.N) (q : Fin 2048) (k : Fin 4224) :
    (rhsBlk m c t (ix2 q k) : EReal) = rhs m c (ix2 (colAt t q) k) := by
  obtain ⟨-, -, e2, e3, -⟩ := idx_facts t
  show V m c main_call0_v57 (((cfg0.win 1).blk t).view.emb (ix2 q k)) = V m c main_call0_v57 (ix2 (colAt t q) k)
  refine congrArg (V m c main_call0_v57) (funext fun a => Fin.ext ?_)
  match a with
  | ⟨0, _⟩ => show win0_1.index t (0 : Fin 2) * 2048 + 1 * q.val = win0_4.index t (1 : Fin 2) * 2048 + q.val; omega
  | ⟨1, _⟩ => show win0_1.index t (1 : Fin 2) * 4224 + 1 * k.val = k.val; omega

/-- The scale block is the scale array. -/
theorem sclBlk_apply (c : Dev nD) (t : Fin cfg0.N) :
    (sclBlk m c t (ix2 (0 : Fin 1) (0 : Fin 1)) : EReal) = scl m c (ix2 (0 : Fin 1) (0 : Fin 1)) := by
  obtain ⟨-, -, -, -, e4, e5, -⟩ := idx_facts t
  show V m c main_call0_v58 (((cfg0.win 2).blk t).view.emb (ix2 (0 : Fin 1) (0 : Fin 1))) = V m c main_call0_v58 (ix2 (0 : Fin 1) (0 : Fin 1))
  refine congrArg (V m c main_call0_v58) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- Entry q of the bias block is bias entry (colAt t q). -/
theorem browBlk_apply (c : Dev nD) (t : Fin cfg0.N) (q : Fin 2048) :
    (browBlk m c t (ix2 (0 : Fin 1) q) : EReal) = brow m c (ix2 (0 : Fin 1) (colAt t q)) := by
  obtain ⟨-, -, -, -, -, -, e6, e7, -⟩ := idx_facts t
  show V m c main_call0_v59 (((cfg0.win 3).blk t).view.emb (ix2 (0 : Fin 1) q)) = V m c main_call0_v59 (ix2 (0 : Fin 1) (colAt t q))
  refine congrArg (V m c main_call0_v59) (funext fun a => Fin.ext ?_)
  match a with
  | ⟨0, _⟩ => show win0_3.index t (0 : Fin 2) * 1 + 1 * 0 = 0; omega
  | ⟨1, _⟩ => show win0_3.index t (1 : Fin 2) * 2048 + 1 * q.val = win0_4.index t (1 : Fin 2) * 2048 + q.val; omega

/-! ## What a point writes back is a block of the target -/

/-- The body's stored value at entry (p, q) is the target's entry at (rowAt t p, colAt t q). -/
theorem stored_apply (c : Dev nD) (t : Fin cfg0.N) (p : Fin 512) (q : Fin 2048) :
    k0_pay1 (lhsBlk m c t) (rhsBlk m c t) (sclBlk m c t) (browBlk m c t) (ix2 p q)
      = target m c (ix2 (rowAt t p) (colAt t q)) := by
  refine (Cert.KernelIdeal.Block.payload_apply (lhsBlk m c t) (rhsBlk m c t) (sclBlk m c t) (browBlk m c t) p q).trans ?_
  unfold target
  rw [Cert.ScaledProduct.array_apply, ← Cert.ScaledProduct.entry_eq_mul_right, sclBlk_apply, browBlk_apply]
  exact congrArg (fun x : EReal => x * scl m c (ix2 (0 : Fin 1) (0 : Fin 1)) + brow m c (ix2 (0 : Fin 1) (colAt t q)))
    (Finset.sum_congr rfl fun k _ => by rw [lhsBlk_apply, rhsBlk_apply])

theorem flushed_eq (c : Dev nD) (t : Fin cfg0.N) :
    (dats m 0 c).flushed 4 t = ((cfg0.win 4).blk t).view.read (Elt Ideal) (target m c) := by
  rw [Cert.KernelIdeal.Value.flushed4]
  unfold out0_4
  rw [View.canon_unit_zero hz]
  simp only [View.ld_unit_zero (S := S512x4224) hz, View.ld_unit_zero (S := S2048x4224) hz,
    View.ld_unit_zero (S := S1x1) hz, View.ld_unit_zero (S := S1x2048) hz]
  funext y
  obtain ⟨p, q, rfl⟩ : ∃ (p : Fin 512) (q : Fin 2048), y = ix2 p q := ⟨y 0, y 1, eq_ix2 y⟩
  show k0_pay1 (lhsBlk m c t) (rhsBlk m c t) (sclBlk m c t) (browBlk m c t) (ix2 p q)
    = target m c (((cfg0.win 4).blk t).view.emb (ix2 p q))
  rw [out_emb]
  exact stored_apply m c t p q

/-! ## The blocks tile the output array -/

/-- An index of the output array is in point t's block iff each coordinate is in the block's range on its axis. -/
theorem mem_blk (t : Fin cfg0.N) (i : S8192x4096.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v0).slice (win0_4.rect t)).set ↔ _
  rw [View.set_slice_whole, Rect.mem_set_unit]
  exact Iff.rfl

/-- Every entry (r, j) of the output lies in the block of the point at block position (r / 512, j / 2048). -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The output array after the run is the target. -/
theorem final (c : Dev nD) : (dats m 0 c).arrAt 4 cfg0.N = target m c :=
  (dats m 0 c).arrAt_eq_of_cover 4 (target m c) (fun t _ => flushed_eq m c t) cover

/-! ## The run -/

/-- Every weakly fair execution of the idealized kernel's program terminates with the output array at the target and
    the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Array

end
-- ==== Proof.ReferenceOps.lean ====
/-
  The reference program's host operations, in the order it runs them: one entry per statement of its
  printed windows, the operation of that statement. A table only; what is proved about it is elsewhere.
-/
import proofs.«428095_j4475355922946_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The 60 operations of window main_part0, in order. -/
abbrev ops_part0 : List (HloOp τ sig (Elt F)) :=
  [ nullary main_cst (fun i => FloatOps.ofBits .f32 (lit0 (S16.rowMajor i))),
    nullary main_c (constantI S_ 32 15#32),
    unary main_c main_v0 (broadcastInDim S8192x2112 ![] bcast_S_S8192x2112 : (⟨S_, .i32⟩ : BufTy).Contents (Elt F) → (⟨S8192x2112, .i32⟩ : BufTy).Contents (Elt F)),
    binary main_arg0 main_v0 main_v1 (andi : (⟨S8192x2112, .i32⟩ : BufTy).Contents (Elt F) → (⟨S8192x2112, .i32⟩ : BufTy).Contents (Elt F) → (⟨S8192x2112, .i32⟩ : BufTy).Contents (Elt F)),
    nullary main_c_0 (constantI S_ 32 4#32),
    unary main_c_0 main_v2 (broadcastInDim S8192x2112 ![] bcast_S_S8192x2112 : (⟨S_, .i32⟩ : BufTy).Contents (Elt F) → (⟨S8192x2112, .i32⟩ : BufTy).Contents (Elt F)),
    binary main_arg0 main_v2 main_v3 (Host.shrsi : (⟨S8192x2112, .i32⟩ : BufTy).Contents (Elt F) → (⟨S8192x2112, .i32⟩ : BufTy).Contents (Elt F) → (⟨S8192x2112, .i32⟩ : BufTy).Contents (Elt F)),
    nullary main_c_1 (constantI S_ 32 15#32),
    unary main_c_1 main_v4 (broadcastInDim S8192x2112 ![] bcast_S_S8192x2112 : (⟨S_, .i32⟩ : BufTy).Contents (Elt F) → (⟨S8192x2112, .i32⟩ : BufTy).Contents (Elt F)),
    binary main_v3 main_v4 main_v5 (andi : (⟨S8192x2112, .i32⟩ : BufTy).Contents (Elt F) → (⟨S8192x2112, .i32⟩ : BufTy).Contents (Elt F) → (⟨S8192x2112, .i32⟩ : BufTy).Contents (Elt F)),
    unary main_v1 main_v6 (broadcastInDim S8192x2112x1 ![0, 1] bcast_S8192x2112_S8192x2112x1_0_1 : (⟨S8192x2112, .i32⟩ : BufTy).Contents (Elt F) → (⟨S8192x2112x1, .i32⟩ : BufTy).Contents (Elt F)),
    unary main_v5 main_v7 (broadcastInDim S8192x2112x1 ![0, 1] bcast_S8192x2112_S8192x2112x1_0_1 : (⟨S8192x2112, .i32⟩ : BufTy).Contents (Elt F) → (⟨S8192x2112x1, .i32⟩ : BufTy).Contents (Elt F)),
    binary main_v6 main_v7 main_v8 ((fun a b => concatenate S8192x2112x2 2 [⟨S8192x2112x1, a⟩, ⟨S8192x2112x1, b⟩] concatenates_S8192x2112x1_S8192x2112x1_S8192x2112x2_d2) : (⟨S8192x2112x1, .i32⟩ : BufTy).Contents (Elt F) → (⟨S8192x2112x1, .i32⟩ : BufTy).Contents (Elt F) → (⟨S8192x2112x2, .i32⟩ : BufTy).Contents (Elt F)),
    reshape main_v8 main_v9 rfl shapeCasts_S8192x2112x2_S8192x4224,
    nullary main_c_2 (constantI S_ 32 0#32),
    unary main_c_2 main_v10 (broadcastInDim S8192x4224 ![] bcast_S_S8192x4224 : (⟨S_, .i32⟩ : BufTy).Contents (Elt F) → (⟨S8192x4224, .i32⟩ : BufTy).Contents (Elt F)),
    binary main_v9 main_v10 main_v11 (cmpi .slt : (⟨S8192x4224, .i32⟩ : BufTy).Contents (Elt F) → (⟨S8192x4224, .i32⟩ : BufTy).Contents (Elt F) → (⟨S8192x4224, .i1⟩ : BufTy).Contents (Elt F)),
    nullary main_c_3 (constantI S_ 32 16#32),
    unary main_c_3 main_v12 (broadcastInDim S8192x4224 ![] bcast_S_S8192x4224 : (⟨S_, .i32⟩ : BufTy).Contents (Elt F) → (⟨S8192x4224, .i32⟩ : BufTy).Contents (Elt F)),
    binary main_v9 main_v12 main_v13 (addi : (⟨S8192x4224, .i32⟩ : BufTy).Contents (Elt F) → (⟨S8192x4224, .i32⟩ : BufTy).Contents (Elt F) → (⟨S8192x4224, .i32⟩ : BufTy).Contents (Elt F)),
    ternary main_v11 main_v13 main_v9 main_v14 (select : (⟨S8192x4224, .i1⟩ : BufTy).Contents (Elt F) → (⟨S8192x4224, .i32⟩ : BufTy).Contents (Elt F) → (⟨S8192x4224, .i32⟩ : BufTy).Contents (Elt F) → (⟨S8192x4224, .i32⟩ : BufTy).Contents (Elt F)),
    unary main_v14 main_v15 (broadcastInDim S8192x4224x1 ![0, 1] bcast_S8192x4224_S8192x4224x1_0_1 : (⟨S8192x4224, .i32⟩ : BufTy).Contents (Elt F) → (⟨S8192x4224x1, .i32⟩ : BufTy).Contents (Elt F)),
    binary main_cst main_v15 main_v16 ((fun x i => Host.gather gather_S16_S8192x4224x1_S8192x4224_n_0_n_n_0_2_1 x i) : (⟨S16, .f32⟩ : BufTy).Contents (Elt F) → (⟨S8192x4224x1, .i32⟩ : BufTy).Contents (Elt F) → (⟨S8192x4224, .f32⟩ : BufTy).Contents (Elt F)),
    nullary main_c_4 (constantI S_ 32 127#32),
    unary main_c_4 main_v17 (broadcastInDim S8192x264 ![] bcast_S_S8192x264 : (⟨S_, .i32⟩ : BufTy).Contents (Elt F) → (⟨S8192x264, .i32⟩ : BufTy).Contents (Elt F)),
    binary main_arg1 main_v17 main_v18 (subi : (⟨S8192x264, .i32⟩ : BufTy).Contents (Elt F) → (⟨S8192x264, .i32⟩ : BufTy).Contents (Elt F) → (⟨S8192x264, .i32⟩ : BufTy).Contents (Elt F)),
    unary main_v18 main_v19 (sitofp .f32 : (⟨S8192x264, .i32⟩ : BufTy).Contents (Elt F) → (⟨S8192x264, .f32⟩ : BufTy).Contents (Elt F)),
    nullary main_cst_5 (constant S_ .f32 0x3F317218#32),
    unary main_cst_5 main_v20 (broadcastInDim S8192x264 ![] bcast_S_S8192x264 : (⟨S_, .f32⟩ : BufTy).Contents (Elt F) → (⟨S8192x264, .f32⟩ : BufTy).Contents (Elt F)),
    binary main_v20 main_v19 main_v21 (mulf : (⟨S8192x264, .f32⟩ : BufTy).Contents (Elt F) → (⟨S8192x264, .f32⟩ : BufTy).Contents (Elt F) → (⟨S8192x264, .f32⟩ : BufTy).Contents (Elt F)),
    unary main_v21 main_v22 (Host.exp : (⟨S8192x264, .f32⟩ : BufTy).Contents (Elt F) → (⟨S8192x264, .f32⟩ : BufTy).Contents (Elt F)),
    reshape main_v16 main_v23 rfl shapeCasts_S8192x4224_S8192x264x16,
    unary main_v22 main_v24 (broadcastInDim S8192x264x1 ![0, 1] bcast_S8192x264_S8192x264x1_0_1 : (⟨S8192x264, .f32⟩ : BufTy).Contents (Elt F) → (⟨S8192x264x1, .f32⟩ : BufTy).Contents (Elt F)),
    unary main_v24 main_v25 (broadcastInDim S8192x264x16 ![0, 1, 2] bcast_S8192x264x1_S8192x264x16_0_1_2 : (⟨S8192x264x1, .f32⟩ : BufTy).Contents (Elt F) → (⟨S8192x264x16, .f32⟩ : BufTy).Contents (Elt F)),
    binary main_v23 main_v25 main_v26 (mulf : (⟨S8192x264x16, .f32⟩ : BufTy).Contents (Elt F) → (⟨S8192x264x16, .f32⟩ : BufTy).Contents (Elt F) → (⟨S8192x264x16, .f32⟩ : BufTy).Contents (Elt F)),
    reshape main_v26 main_v27 rfl shapeCasts_S8192x264x16_S8192x4224,
    nullary main_c_6 (constantI S_ 32 15#32),
    unary main_c_6 main_v28 (broadcastInDim S4096x2112 ![] bcast_S_S4096x2112 : (⟨S_, .i32⟩ : BufTy).Contents (Elt F) → (⟨S4096x2112, .i32⟩ : BufTy).Contents (Elt F)),
    binary main_arg3 main_v28 main_v29 (andi : (⟨S4096x2112, .i32⟩ : BufTy).Contents (Elt F) → (⟨S4096x2112, .i32⟩ : BufTy).Contents (Elt F) → (⟨S4096x2112, .i32⟩ : BufTy).Contents (Elt F)),
    nullary main_c_7 (constantI S_ 32 4#32),
    unary main_c_7 main_v30 (broadcastInDim S4096x2112 ![] bcast_S_S4096x2112 : (⟨S_, .i32⟩ : BufTy).Contents (Elt F) → (⟨S4096x2112, .i32⟩ : BufTy).Contents (Elt F)),
    binary main_arg3 main_v30 main_v31 (Host.shrsi : (⟨S4096x2112, .i32⟩ : BufTy).Contents (Elt F) → (⟨S4096x2112, .i32⟩ : BufTy).Contents (Elt F) → (⟨S4096x2112, .i32⟩ : BufTy).Contents (Elt F)),
    nullary main_c_8 (constantI S_ 32 15#32),
    unary main_c_8 main_v32 (broadcastInDim S4096x2112 ![] bcast_S_S4096x2112 : (⟨S_, .i32⟩ : BufTy).Contents (Elt F) → (⟨S4096x2112, .i32⟩ : BufTy).Contents (Elt F)),
    binary main_v31 main_v32 main_v33 (andi : (⟨S4096x2112, .i32⟩ : BufTy).Contents (Elt F) → (⟨S4096x2112, .i32⟩ : BufTy).Contents (Elt F) → (⟨S4096x2112, .i32⟩ : BufTy).Contents (Elt F)),
    unary main_v29 main_v34 (broadcastInDim S4096x2112x1 ![0, 1] bcast_S4096x2112_S4096x2112x1_0_1 : (⟨S4096x2112, .i32⟩ : BufTy).Contents (Elt F) → (⟨S4096x2112x1, .i32⟩ : BufTy).Contents (Elt F)),
    unary main_v33 main_v35 (broadcastInDim S4096x2112x1 ![0, 1] bcast_S4096x2112_S4096x2112x1_0_1 : (⟨S4096x2112, .i32⟩ : BufTy).Contents (Elt F) → (⟨S4096x2112x1, .i32⟩ : BufTy).Contents (Elt F)),
    binary main_v34 main_v35 main_v36 ((fun a b => concatenate S4096x2112x2 2 [⟨S4096x2112x1, a⟩, ⟨S4096x2112x1, b⟩] concatenates_S4096x2112x1_S4096x2112x1_S4096x2112x2_d2) : (⟨S4096x2112x1, .i32⟩ : BufTy).Contents (Elt F) → (⟨S4096x2112x1, .i32⟩ : BufTy).Contents (Elt F) → (⟨S4096x2112x2, .i32⟩ : BufTy).Contents (Elt F)),
    reshape main_v36 main_v37 rfl shapeCasts_S4096x2112x2_S4096x4224,
    nullary main_c_9 (constantI S_ 32 0#32),
    unary main_c_9 main_v38 (broadcastInDim S4096x4224 ![] bcast_S_S4096x4224 : (⟨S_, .i32⟩ : BufTy).Contents (Elt F) → (⟨S4096x4224, .i32⟩ : BufTy).Contents (Elt F)),
    binary main_v37 main_v38 main_v39 (cmpi .slt : (⟨S4096x4224, .i32⟩ : BufTy).Contents (Elt F) → (⟨S4096x4224, .i32⟩ : BufTy).Contents (Elt F) → (⟨S4096x4224, .i1⟩ : BufTy).Contents (Elt F)),
    nullary main_c_10 (constantI S_ 32 16#32),
    unary main_c_10 main_v40 (broadcastInDim S4096x4224 ![] bcast_S_S4096x4224 : (⟨S_, .i32⟩ : BufTy).Contents (Elt F) → (⟨S4096x4224, .i32⟩ : BufTy).Contents (Elt F)),
    binary main_v37 main_v40 main_v41 (addi : (⟨S4096x4224, .i32⟩ : BufTy).Contents (Elt F) → (⟨S4096x4224, .i32⟩ : BufTy).Contents (Elt F) → (⟨S4096x4224, .i32⟩ : BufTy).Contents (Elt F)),
    ternary main_v39 main_v41 main_v37 main_v42 (select : (⟨S4096x4224, .i1⟩ : BufTy).Contents (Elt F) → (⟨S4096x4224, .i32⟩ : BufTy).Contents (Elt F) → (⟨S4096x4224, .i32⟩ : BufTy).Contents (Elt F) → (⟨S4096x4224, .i32⟩ : BufTy).Contents (Elt F)),
    unary main_v42 main_v43 (broadcastInDim S4096x4224x1 ![0, 1] bcast_S4096x4224_S4096x4224x1_0_1 : (⟨S4096x4224, .i32⟩ : BufTy).Contents (Elt F) → (⟨S4096x4224x1, .i32⟩ : BufTy).Contents (Elt F)),
    binary main_cst main_v43 main_v44 ((fun x i => Host.gather gather_S16_S4096x4224x1_S4096x4224_n_0_n_n_0_2_1 x i) : (⟨S16, .f32⟩ : BufTy).Contents (Elt F) → (⟨S4096x4224x1, .i32⟩ : BufTy).Contents (Elt F) → (⟨S4096x4224, .f32⟩ : BufTy).Contents (Elt F)),
    nullary main_c_11 (constantI S_ 32 127#32),
    unary main_c_11 main_v45 (broadcastInDim S4096x264 ![] bcast_S_S4096x264 : (⟨S_, .i32⟩ : BufTy).Contents (Elt F) → (⟨S4096x264, .i32⟩ : BufTy).Contents (Elt F)) ]

/-- The 18 operations of window main_part1, in order. -/
abbrev ops_part1 : List (HloOp τ sig (Elt F)) :=
  [ binary main_arg4 main_v45 main_v46 (subi : (⟨S4096x264, .i32⟩ : BufTy).Contents (Elt F) → (⟨S4096x264, .i32⟩ : BufTy).Contents (Elt F) → (⟨S4096x264, .i32⟩ : BufTy).Contents (Elt F)),
    unary main_v46 main_v47 (sitofp .f32 : (⟨S4096x264, .i32⟩ : BufTy).Contents (Elt F) → (⟨S4096x264, .f32⟩ : BufTy).Contents (Elt F)),
    nullary main_cst_12 (constant S_ .f32 0x3F317218#32),
    unary main_cst_12 main_v48 (broadcastInDim S4096x264 ![] bcast_S_S4096x264 : (⟨S_, .f32⟩ : BufTy).Contents (Elt F) → (⟨S4096x264, .f32⟩ : BufTy).Contents (Elt F)),
    binary main_v48 main_v47 main_v49 (mulf : (⟨S4096x264, .f32⟩ : BufTy).Contents (Elt F) → (⟨S4096x264, .f32⟩ : BufTy).Contents (Elt F) → (⟨S4096x264, .f32⟩ : BufTy).Contents (Elt F)),
    unary main_v49 main_v50 (Host.exp : (⟨S4096x264, .f32⟩ : BufTy).Contents (Elt F) → (⟨S4096x264, .f32⟩ : BufTy).Contents (Elt F)),
    reshape main_v44 main_v51 rfl shapeCasts_S4096x4224_S4096x264x16,
    unary main_v50 main_v52 (broadcastInDim S4096x264x1 ![0, 1] bcast_S4096x264_S4096x264x1_0_1 : (⟨S4096x264, .f32⟩ : BufTy).Contents (Elt F) → (⟨S4096x264x1, .f32⟩ : BufTy).Contents (Elt F)),
    unary main_v52 main_v53 (broadcastInDim S4096x264x16 ![0, 1, 2] bcast_S4096x264x1_S4096x264x16_0_1_2 : (⟨S4096x264x1, .f32⟩ : BufTy).Contents (Elt F) → (⟨S4096x264x16, .f32⟩ : BufTy).Contents (Elt F)),
    binary main_v51 main_v53 main_v54 (mulf : (⟨S4096x264x16, .f32⟩ : BufTy).Contents (Elt F) → (⟨S4096x264x16, .f32⟩ : BufTy).Contents (Elt F) → (⟨S4096x264x16, .f32⟩ : BufTy).Contents (Elt F)),
    reshape main_v54 main_v55 rfl shapeCasts_S4096x264x16_S4096x4224,
    reshape main_arg2 main_v56 rfl shapeCasts_S1_S_,
    binary main_v27 main_v55 main_v57 ((fun l r => Host.dotGeneral dot_S8192x4224_S4096x4224_S8192x4096_1_1_0_0_n_n none l r) : (⟨S8192x4224, .f32⟩ : BufTy).Contents (Elt F) → (⟨S4096x4224, .f32⟩ : BufTy).Contents (Elt F) → (⟨S8192x4096, .f32⟩ : BufTy).Contents (Elt F)),
    unary main_v56 main_v58 (broadcastInDim S8192x4096 ![] bcast_S_S8192x4096 : (⟨S_, .f32⟩ : BufTy).Contents (Elt F) → (⟨S8192x4096, .f32⟩ : BufTy).Contents (Elt F)),
    binary main_v58 main_v57 main_v59 (mulf : (⟨S8192x4096, .f32⟩ : BufTy).Contents (Elt F) → (⟨S8192x4096, .f32⟩ : BufTy).Contents (Elt F) → (⟨S8192x4096, .f32⟩ : BufTy).Contents (Elt F)),
    unary main_arg5 main_v60 (broadcastInDim S1x4096 ![1] bcast_S4096_S1x4096_1 : (⟨S4096, .f32⟩ : BufTy).Contents (Elt F) → (⟨S1x4096, .f32⟩ : BufTy).Contents (Elt F)),
    unary main_v60 main_v61 (broadcastInDim S8192x4096 ![0, 1] bcast_S1x4096_S8192x4096_0_1 : (⟨S1x4096, .f32⟩ : BufTy).Contents (Elt F) → (⟨S8192x4096, .f32⟩ : BufTy).Contents (Elt F)),
    binary main_v59 main_v61 main_v62 (addf : (⟨S8192x4096, .f32⟩ : BufTy).Contents (Elt F) → (⟨S8192x4096, .f32⟩ : BufTy).Contents (Elt F) → (⟨S8192x4096, .f32⟩ : BufTy).Contents (Elt F)) ]

end Cert.ReferenceIdeal.Ops

end
-- ==== Proof.ReferenceRun.lean ====
/-
  The reference program read back: its operations in order, the function of the six argument arrays that it leaves in
  its result array, and that every weakly fair execution of it ends with the result array at that function of the
  arguments and the arguments unchanged.

  The function: both packed operands are dequantized the same way (two four-bit codes per word, each looked up in a
  table of sixteen values, every group of sixteen values times the exponential scale of its group), the left operand
  (8192 rows) is multiplied with the right one (4096 rows) along their common last axis, the product is multiplied by
  the one scale entry and the bias vector is added along the columns.
-/
import proofs.«428095_j4475355922946_2_alg».proof.Proof.ReferenceOps

noncomputable section

namespace Cert.ReferenceIdeal.RefRun

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-! ## The result as a function of the arguments -/

/-- The table of the sixteen values a four-bit code stands for. -/
def table : (⟨S16, .f32⟩ : BufTy).Contents (Elt F) := fun i => FloatOps.ofBits .f32 (lit0 (S16.rowMajor i))

/-- The two four-bit codes of every packed word, low code first, laid out along the row: entry (r, 2 q + e) is code e of
    word (r, q). -/
def codesA (p : (⟨S8192x2112, .i32⟩ : BufTy).Contents (Elt F)) : (⟨S8192x4224, .i32⟩ : BufTy).Contents (Elt F) :=
  shapeCast S8192x4224 (concatenate S8192x2112x2 2
    [⟨S8192x2112x1, broadcastInDim S8192x2112x1 ![0, 1] bcast_S8192x2112_S8192x2112x1_0_1
        (andi p (broadcastInDim S8192x2112 ![] bcast_S_S8192x2112 (constantI S_ 32 15#32)))⟩,
     ⟨S8192x2112x1, broadcastInDim S8192x2112x1 ![0, 1] bcast_S8192x2112_S8192x2112x1_0_1
        (andi (Host.shrsi p (broadcastInDim S8192x2112 ![] bcast_S_S8192x2112 (constantI S_ 32 4#32)))
          (broadcastInDim S8192x2112 ![] bcast_S_S8192x2112 (constantI S_ 32 15#32)))⟩]
    concatenates_S8192x2112x1_S8192x2112x1_S8192x2112x2_d2) shapeCasts_S8192x2112x2_S8192x4224

/-- Every code looked up in the table of the sixteen values (a negative code first moved up by sixteen). -/
def valuesA (p : (⟨S8192x2112, .i32⟩ : BufTy).Contents (Elt F)) : (⟨S8192x4224, .f32⟩ : BufTy).Contents (Elt F) :=
  Host.gather gather_S16_S8192x4224x1_S8192x4224_n_0_n_n_0_2_1 (table (F := F))
    (broadcastInDim S8192x4224x1 ![0, 1] bcast_S8192x4224_S8192x4224x1_0_1
      (select (cmpi .slt (codesA p) (broadcastInDim S8192x4224 ![] bcast_S_S8192x4224 (constantI S_ 32 0#32)))
        (addi (codesA p) (broadcastInDim S8192x4224 ![] bcast_S_S8192x4224 (constantI S_ 32 16#32)))
        (codesA p)))

/-- The scale of every group of sixteen: the exponential of (log 2 as a float) times (exponent - 127). -/
def scalesA (sf : (⟨S8192x264, .i32⟩ : BufTy).Contents (Elt F)) : (⟨S8192x264, .f32⟩ : BufTy).Contents (Elt F) :=
  Host.exp (mulf (broadcastInDim S8192x264 ![] bcast_S_S8192x264 (constant S_ .f32 0x3F317218#32))
    (sitofp .f32 (subi sf (broadcastInDim S8192x264 ![] bcast_S_S8192x264 (constantI S_ 32 127#32)))))

/-- The dequantized operand: every looked-up value times the scale of its group of sixteen. -/
def dequantA (p : (⟨S8192x2112, .i32⟩ : BufTy).Contents (Elt F)) (sf : (⟨S8192x264, .i32⟩ : BufTy).Contents (Elt F)) : (⟨S8192x4224, .f32⟩ : BufTy).Contents (Elt F) :=
  shapeCast S8192x4224 (mulf (shapeCast S8192x264x16 (valuesA p) shapeCasts_S8192x4224_S8192x264x16)
    (broadcastInDim S8192x264x16 ![0, 1, 2] bcast_S8192x264x1_S8192x264x16_0_1_2
      (broadcastInDim S8192x264x1 ![0, 1] bcast_S8192x264_S8192x264x1_0_1 (scalesA sf)))) shapeCasts_S8192x264x16_S8192x4224

/-- The two four-bit codes of every packed word, low code first, laid out along the row: entry (r, 2 q + e) is code e of
    word (r, q). -/
def codesB (p : (⟨S4096x2112, .i32⟩ : BufTy).Contents (Elt F)) : (⟨S4096x4224, .i32⟩ : BufTy).Contents (Elt F) :=
  shapeCast S4096x4224 (concatenate S4096x2112x2 2
    [⟨S4096x2112x1, broadcastInDim S4096x2112x1 ![0, 1] bcast_S4096x2112_S4096x2112x1_0_1
        (andi p (broadcastInDim S4096x2112 ![] bcast_S_S4096x2112 (constantI S_ 32 15#32)))⟩,
     ⟨S4096x2112x1, broadcastInDim S4096x2112x1 ![0, 1] bcast_S4096x2112_S4096x2112x1_0_1
        (andi (Host.shrsi p (broadcastInDim S4096x2112 ![] bcast_S_S4096x2112 (constantI S_ 32 4#32)))
          (broadcastInDim S4096x2112 ![] bcast_S_S4096x2112 (constantI S_ 32 15#32)))⟩]
    concatenates_S4096x2112x1_S4096x2112x1_S4096x2112x2_d2) shapeCasts_S4096x2112x2_S4096x4224

/-- Every code looked up in the table of the sixteen values (a negative code first moved up by sixteen). -/
def valuesB (p : (⟨S4096x2112, .i32⟩ : BufTy).Contents (Elt F)) : (⟨S4096x4224, .f32⟩ : BufTy).Contents (Elt F) :=
  Host.gather gather_S16_S4096x4224x1_S4096x4224_n_0_n_n_0_2_1 (table (F := F))
    (broadcastInDim S4096x4224x1 ![0, 1] bcast_S4096x4224_S4096x4224x1_0_1
      (select (cmpi .slt (codesB p) (broadcastInDim S4096x4224 ![] bcast_S_S4096x4224 (constantI S_ 32 0#32)))
        (addi (codesB p) (broadcastInDim S4096x4224 ![] bcast_S_S4096x4224 (constantI S_ 32 16#32)))
        (codesB p)))

/-- The scale of every group of sixteen: the exponential of (log 2 as a float) times (exponent - 127). -/
def scalesB (sf : (⟨S4096x264, .i32⟩ : BufTy).Contents (Elt F)) : (⟨S4096x264, .f32⟩ : BufTy).Contents (Elt F) :=
  Host.exp (mulf (broadcastInDim S4096x264 ![] bcast_S_S4096x264 (constant S_ .f32 0x3F317218#32))
    (sitofp .f32 (subi sf (broadcastInDim S4096x264 ![] bcast_S_S4096x264 (constantI S_ 32 127#32)))))

/-- The dequantized operand: every looked-up value times the scale of its group of sixteen. -/
def dequantB (p : (⟨S4096x2112, .i32⟩ : BufTy).Contents (Elt F)) (sf : (⟨S4096x264, .i32⟩ : BufTy).Contents (Elt F)) : (⟨S4096x4224, .f32⟩ : BufTy).Contents (Elt F) :=
  shapeCast S4096x4224 (mulf (shapeCast S4096x264x16 (valuesB p) shapeCasts_S4096x4224_S4096x264x16)
    (broadcastInDim S4096x264x16 ![0, 1, 2] bcast_S4096x264x1_S4096x264x16_0_1_2
      (broadcastInDim S4096x264x1 ![0, 1] bcast_S4096x264_S4096x264x1_0_1 (scalesB sf)))) shapeCasts_S4096x264x16_S4096x4224

/-- What the reference leaves in its result array: scale times the product of the dequantized operands along their last
    axis, plus the bias along the columns. -/
def result (a0 : (⟨S8192x2112, .i32⟩ : BufTy).Contents (Elt F)) (a1 : (⟨S8192x264, .i32⟩ : BufTy).Contents (Elt F)) (a2 : (⟨S1, .f32⟩ : BufTy).Contents (Elt F))
    (a3 : (⟨S4096x2112, .i32⟩ : BufTy).Contents (Elt F)) (a4 : (⟨S4096x264, .i32⟩ : BufTy).Contents (Elt F)) (a5 : (⟨S4096, .f32⟩ : BufTy).Contents (Elt F)) : (⟨S8192x4096, .f32⟩ : BufTy).Contents (Elt F) :=
  addf (mulf (broadcastInDim S8192x4096 ![] bcast_S_S8192x4096 (shapeCast S_ a2 shapeCasts_S1_S_))
      (Host.dotGeneral dot_S8192x4224_S4096x4224_S8192x4096_1_1_0_0_n_n none (dequantA a0 a1) (dequantB a3 a4)))
    (broadcastInDim S8192x4096 ![0, 1] bcast_S1x4096_S8192x4096_0_1 (broadcastInDim S1x4096 ![1] bcast_S4096_S1x4096_1 a5))

/-! ## The program is the sequence of its operations -/

/-- All the operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub, and_self]
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-! ## What the operations leave in the buffers -/

set_option maxRecDepth 8192 in
set_option maxHeartbeats 4000000 in
/-- After all the operations the result buffer holds `result` of the argument buffers' contents. -/
theorem after_result (V0 : Valuation τ sig (Elt F)) :
    after ops V0 (Proc.devRef .tc main_v62)
      = result (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  simp only [ops, List.cons_append, List.nil_append]
  after_results_simp
  rfl

set_option maxRecDepth 8192 in
set_option maxHeartbeats 4000000 in
/-- No operation writes argument 0's buffer. -/
theorem after_arg0 (V0 : Valuation τ sig (Elt F)) :
    after ops V0 (Proc.devRef .tc main_arg0) = V0 (Proc.devRef .tc main_arg0) := by
  simp only [ops, List.cons_append, List.nil_append]
  after_results_simp
set_option maxRecDepth 8192 in
set_option maxHeartbeats 4000000 in
/-- No operation writes argument 1's buffer. -/
theorem after_arg1 (V0 : Valuation τ sig (Elt F)) :
    after ops V0 (Proc.devRef .tc main_arg1) = V0 (Proc.devRef .tc main_arg1) := by
  simp only [ops, List.cons_append, List.nil_append]
  after_results_simp
set_option maxRecDepth 8192 in
set_option maxHeartbeats 4000000 in
/-- No operation writes argument 2's buffer. -/
theorem after_arg2 (V0 : Valuation τ sig (Elt F)) :
    after ops V0 (Proc.devRef .tc main_arg2) = V0 (Proc.devRef .tc main_arg2) := by
  simp only [ops, List.cons_append, List.nil_append]
  after_results_simp
set_option maxRecDepth 8192 in
set_option maxHeartbeats 4000000 in
/-- No operation writes argument 3's buffer. -/
theorem after_arg3 (V0 : Valuation τ sig (Elt F)) :
    after ops V0 (Proc.devRef .tc main_arg3) = V0 (Proc.devRef .tc main_arg3) := by
  simp only [ops, List.cons_append, List.nil_append]
  after_results_simp
set_option maxRecDepth 8192 in
set_option maxHeartbeats 4000000 in
/-- No operation writes argument 4's buffer. -/
theorem after_arg4 (V0 : Valuation τ sig (Elt F)) :
    after ops V0 (Proc.devRef .tc main_arg4) = V0 (Proc.devRef .tc main_arg4) := by
  simp only [ops, List.cons_append, List.nil_append]
  after_results_simp
set_option maxRecDepth 8192 in
set_option maxHeartbeats 4000000 in
/-- No operation writes argument 5's buffer. -/
theorem after_arg5 (V0 : Valuation τ sig (Elt F)) :
    after ops V0 (Proc.devRef .tc main_arg5) = V0 (Proc.devRef .tc main_arg5) := by
  simp only [ops, List.cons_append, List.nil_append]
  after_results_simp

/-! ## The run -/

/-- On every device, from any memory with zero counters: every weakly fair execution of the reference terminates with
    the result array at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v62).trans (after_result (launchContents m c)),
      (h c main_arg0).trans (after_arg0 (launchContents m c)), (h c main_arg1).trans (after_arg1 (launchContents m c)),
      (h c main_arg2).trans (after_arg2 (launchContents m c)), (h c main_arg3).trans (after_arg3 (launchContents m c)),
      (h c main_arg4).trans (after_arg4 (launchContents m c)), (h c main_arg5).trans (after_arg5 (launchContents m c))⟩)
    (run_seq scopedRefs_eq scopedSems_eq defs main (fun _ => ops) main_eq (fun _ => ops_sub) m ρ)

end Cert.ReferenceIdeal.RefRun

end
-- ==== Proof.ResultsInside.lean ====
/-
  A tactic for a goal about what a list of host operations leaves in a buffer, when the value sits inside the operand
  list of a concatenation: it reads each remaining operation's result off, one operation at a time.
-/
import Idealize.ShloMosaic.Lib.StableHlo.Run

namespace Cert.ResultsInside

open Idealize.ShloMosaic.StableHlo

/-- Rewrites what is left of a fold of host operations' results, one operation at a time: at an operation's own result
    buffer its function's value, at any other buffer what was there before. -/
macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Cert.ResultsInside
-- ==== Proof.KernelOperands.lean ====
/-
  The arrays the kernel's region reads are what the host operations before it leave. The left operand is the
  dequantized first packed argument (the same dequantization as the reference's, operation for operation) rounded to a
  narrower float format; the scale is the one-entry argument recast as a one-by-one array; the bias row is the bias
  vector recast as one row.
-/
import proofs.«428095_j4475355922946_2_alg».proof.Proof.Gen.KernelIdeal.Frame
import proofs.«428095_j4475355922946_2_alg».proof.Proof.ReferenceRun
import proofs.«428095_j4475355922946_2_alg».proof.Proof.ResultsInside
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo Cert.ResultsInside

variable {F : FTy → Type} [FloatOps F]
variable (m : (ℓ : Loc nD τ sig) → Buf (Elt F) ℓ)

set_option maxRecDepth 8192 in
set_option maxHeartbeats 4000000 in
/-- The left operand as the region finds it. -/
theorem lhs_eq (c : Dev nD) :
    (V m c main_call0_v56 : S8192x4224.Idx → Elt F .bf16)
      = truncf .bf16 (Cert.ReferenceIdeal.RefRun.dequantA (m ((c : Thread nD τ).loc main_arg0)) (m ((c : Thread nD τ).loc main_arg1))) bitsLt_bf16_f32 := by
  dsimp only [Gen.V, Gen.hostOps0]
  after_results_simp
  results_inside
  rfl

set_option maxRecDepth 8192 in
set_option maxHeartbeats 4000000 in
/-- The scale as the region finds it. -/
theorem scl_eq (c : Dev nD) :
    (V m c main_call0_v58 : S1x1.Idx → Elt F .f32) = shapeCast S1x1 (m ((c : Thread nD τ).loc main_arg2)) shapeCasts_S1_S1x1 := by
  dsimp only [Gen.V, Gen.hostOps0]
  after_results_simp
  rfl

set_option maxRecDepth 8192 in
set_option maxHeartbeats 4000000 in
/-- The bias row as the region finds it. -/
theorem brow_eq (c : Dev nD) :
    (V m c main_call0_v59 : S1x4096.Idx → Elt F .f32) = shapeCast S1x4096 (m ((c : Thread nD τ).loc main_arg5)) shapeCasts_S4096_S1x4096 := by
  dsimp only [Gen.V, Gen.hostOps0]
  after_results_simp
  rfl

end Cert.KernelIdeal.Operands

end
-- ==== Proof.KernelOperandRight.lean ====
/-
  The right operand the kernel's region reads is the dequantized second packed argument (the same dequantization as
  the reference's, operation for operation) rounded to a narrower float format.
-/
import proofs.«428095_j4475355922946_2_alg».proof.Proof.Gen.KernelIdeal.Frame
import proofs.«428095_j4475355922946_2_alg».proof.Proof.ReferenceRun
import proofs.«428095_j4475355922946_2_alg».proof.Proof.ResultsInside
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo Cert.ResultsInside

variable {F : FTy → Type} [FloatOps F]
variable (m : (ℓ : Loc nD τ sig) → Buf (Elt F) ℓ)

set_option maxRecDepth 8192 in
set_option maxHeartbeats 4000000 in
/-- The right operand as the region finds it. -/
theorem rhs_eq (c : Dev nD) :
    (V m c main_call0_v57 : S4096x4224.Idx → Elt F .bf16)
      = truncf .bf16 (Cert.ReferenceIdeal.RefRun.dequantB (m ((c : Thread nD τ).loc main_arg3)) (m ((c : Thread nD τ).loc main_arg4))) bitsLt_bf16_f32 := by
  dsimp only [Gen.V, Gen.hostOps0]
  after_results_simp
  results_inside
  rfl

end Cert.KernelIdeal.Operands

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.ReferenceEntry.lean ====
/-
  The reference's result read at one entry, on the extended reals: entry (r, j) is the scale entry times the sum over k
  of (dequantized left operand) (r, k) * (dequantized right operand) (j, k), plus bias entry j.

  The host's product contracts both operands on their last axis; the scale, a one-entry vector recast as a scalar, is
  broadcast to every entry; the bias vector is broadcast to one row and that row to every row.
-/
import proofs.«428095_j4475355922946_2_alg».proof.Proof.ReferenceRun
import proofs.«428095_j4475355922946_2_alg».proof.Proof.ScaledProduct
import proofs.«428095_j4475355922946_2_alg».proof.Proof.LibTransposedRhs
import proofs.«428095_j4475355922946_2_alg».proof.Proof.LibLayout2
import Idealize.ShloMosaic.Lib.ValueLayout

noncomputable section

namespace Cert.ReferenceIdeal.RefEntry

open Cert.ReferenceIdeal Cert.ReferenceIdeal.Gen Cert.ReferenceIdeal.RefRun Idealize.ShloMosaic Idealize.ShloMosaic.ValueIdx

/-- The printed record of dimension numbers is that of a product contracting both operands on their last axis. -/
theorem dims_eq : dot_S8192x4224_S4096x4224_S8192x4096_1_1_0_0_n_n = DotDims.transposedRhs 8192 4224 4096 := rfl

/-- A one-entry vector recast as a scalar and broadcast to an array reads, everywhere, the vector's one entry. -/
theorem scalar_everywhere (a2 : FVec Ideal S1 .f32) (i : S8192x4096.Idx) :
    broadcastInDim S8192x4096 ![] bcast_S_S8192x4096 (shapeCast S_ a2 shapeCasts_S1_S_) i = a2 (ix1 (0 : Fin 1)) :=
  (broadcastInDim_apply ![] bcast_S_S8192x4096 _ i ix0 fun a => a.elim0).trans
    (shapeCast_apply a2 shapeCasts_S1_S_ ix0 (ix1 (0 : Fin 1)) rfl)

/-- The reference's result at entry (r, j). -/
theorem result_apply (a0 : (⟨S8192x2112, .i32⟩ : BufTy).Contents (Elt Ideal)) (a1 : (⟨S8192x264, .i32⟩ : BufTy).Contents (Elt Ideal))
    (a2 : (⟨S1, .f32⟩ : BufTy).Contents (Elt Ideal)) (a3 : (⟨S4096x2112, .i32⟩ : BufTy).Contents (Elt Ideal))
    (a4 : (⟨S4096x264, .i32⟩ : BufTy).Contents (Elt Ideal)) (a5 : (⟨S4096, .f32⟩ : BufTy).Contents (Elt Ideal))
    (r : Fin 8192) (j : Fin 4096) :
    result a0 a1 a2 a3 a4 a5 (ix2 r j)
      = Cert.ScaledProduct.entry (dequantA a0 a1) (dequantB a3 a4) (a2 (ix1 (0 : Fin 1))) a5 r j := by
  unfold result Cert.ScaledProduct.entry
  rw [addf_apply, mulf_apply, scalar_everywhere, dims_eq, Cert.LibTransposedRhs.dotGeneral_transposedRhs_any,
    Cert.LibLayout2.bcast_row_apply, Cert.LibLayout2.bcast_vec_row_apply]

end Cert.ReferenceIdeal.RefEntry

end
-- ==== Proof.Bridge.lean ====
/-
  The two programs compute one function. The kernel's output array is scale * left * right^T + bias of the four arrays
  its region reads; those are the dequantized packed arguments (rounding to a narrower float format is the identity on
  the extended reals), the scale argument's one entry and the bias argument. The reference's result, entry by entry, is
  the same expression of the same dequantized arguments.
-/
import proofs.«428095_j4475355922946_2_alg».proof.Proof.KernelArray
import proofs.«428095_j4475355922946_2_alg».proof.Proof.KernelOperands
import proofs.«428095_j4475355922946_2_alg».proof.Proof.KernelOperandRight
import proofs.«428095_j4475355922946_2_alg».proof.Proof.ReferenceEntry
import Idealize.ShloMosaic.Lib.ValueLayout

noncomputable section

namespace Cert.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The left operand the region reads is the dequantized first packed argument. -/
theorem lhs_fun (c : Dev nD) :
    (Cert.KernelIdeal.Array.lhs m c : S8192x4224.Idx → EReal) = Cert.ReferenceIdeal.RefRun.dequantA (m ((c : Thread nD τ).loc main_arg0)) (m ((c : Thread nD τ).loc main_arg1)) :=
  (Cert.KernelIdeal.Operands.lhs_eq m c).trans (funext fun _ => rfl)

/-- The right operand the region reads is the dequantized second packed argument. -/
theorem rhs_fun (c : Dev nD) :
    (Cert.KernelIdeal.Array.rhs m c : S4096x4224.Idx → EReal) = Cert.ReferenceIdeal.RefRun.dequantB (m ((c : Thread nD τ).loc main_arg3)) (m ((c : Thread nD τ).loc main_arg4)) :=
  (Cert.KernelIdeal.Operands.rhs_eq m c).trans (funext fun _ => rfl)

/-- The scale the region reads is the scale argument's one entry. -/
theorem scl_entry (c : Dev nD) :
    (Cert.KernelIdeal.Array.scl m c (ix2 (0 : Fin 1) (0 : Fin 1)) : EReal) = (m ((c : Thread nD τ).loc main_arg2)) (ix1 (0 : Fin 1)) :=
  (congrFun (Cert.KernelIdeal.Operands.scl_eq m c) (ix2 (0 : Fin 1) (0 : Fin 1))).trans
    (shapeCast_a_1a_apply _ shapeCasts_S1_S1x1 (0 : Fin 1) (0 : Fin 1))

/-- The bias row the region reads is the bias argument. -/
theorem brow_fun (c : Dev nD) :
    (fun j : (⟨1, ![4096]⟩ : Shape).Idx => (Cert.KernelIdeal.Array.brow m c (ix2 (0 : Fin 1) (j 0)) : EReal)) = (m ((c : Thread nD τ).loc main_arg5)) :=
  funext fun j => ((congrFun (Cert.KernelIdeal.Operands.brow_eq m c) (ix2 (0 : Fin 1) (j 0))).trans
    (shapeCast_a_1a_apply _ shapeCasts_S4096_S1x4096 (0 : Fin 1) (j 0))).trans (congrArg _ (eq_ix1 j).symm)

/-- The kernel's output array in terms of the arguments. -/
theorem target_eq (c : Dev nD) :
    Cert.KernelIdeal.Array.target m c
      = Cert.ScaledProduct.array (Cert.ReferenceIdeal.RefRun.dequantA (m ((c : Thread nD τ).loc main_arg0)) (m ((c : Thread nD τ).loc main_arg1)))
          (Cert.ReferenceIdeal.RefRun.dequantB (m ((c : Thread nD τ).loc main_arg3)) (m ((c : Thread nD τ).loc main_arg4))) ((m ((c : Thread nD τ).loc main_arg2)) (ix1 (0 : Fin 1))) (m ((c : Thread nD τ).loc main_arg5)) := by
  unfold Cert.KernelIdeal.Array.target
  rw [lhs_fun, rhs_fun, scl_entry, brow_fun]

/-- The reference's result of the arguments is the kernel's output array. -/
theorem result_eq_target (c : Dev nD) :
    Cert.ReferenceIdeal.RefRun.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = Cert.KernelIdeal.Array.target m c := by
  funext i
  obtain ⟨r, j, rfl⟩ : ∃ (r : Fin 8192) (j : Fin 4096), i = ix2 r j := ⟨i 0, i 1, eq_ix2 i⟩
  rw [Cert.ReferenceIdeal.RefEntry.result_apply, target_eq, Cert.ScaledProduct.array_apply]

end Cert.Bridge

end
-- ==== Proof.lean ====
/-
  The certificate: a matrix product of two four-bit-quantized operands with a scale and a bias, as a tiled kernel,
  against its plain reference.

  Both programs dequantize the two packed operands by the same host operations (two four-bit codes per word, a table of
  sixteen values, one exponential scale per group of sixteen values). The reference then forms
  scale * (A * B^T) + bias with one host product. The kernel rounds the operands to a narrower float format (the
  identity on the extended reals), and on a 2 x 16 grid forms, block by block of 512 x 2048 entries,
  (A_block * B_block^T) * scale + bias_block, each product accumulated into the zero array. Entry by entry the two are
  the same sum of products over the common axis of length 4224; the only law used is that multiplication of extended
  reals is commutative (scale on the left or on the right of the product), so no finiteness of the inputs is needed.

  The kernel's and the idealized kernel's frames are the generated ones; the reference has no kernel, and its frame is
  its run with the result dropped. The idealization rewrote nothing, so the statement that it preserves the kernel is
  trivial.
-/
import proofs.«428095_j4475355922946_2_alg».proof.Defs
import proofs.«428095_j4475355922946_2_alg».proof.Proof.Gen.Kernel
import proofs.«428095_j4475355922946_2_alg».proof.Proof.Gen.Kernel.Frame
import proofs.«428095_j4475355922946_2_alg».proof.Proof.Gen.KernelIdeal
import proofs.«428095_j4475355922946_2_alg».proof.Proof.Gen.KernelIdeal.Frame
import proofs.«428095_j4475355922946_2_alg».proof.Proof.Gen.ReferenceIdeal
import proofs.«428095_j4475355922946_2_alg».proof.Proof.Gen.Pre_finite_inputs
import proofs.«428095_j4475355922946_2_alg».proof.Proof.KernelArray
import proofs.«428095_j4475355922946_2_alg».proof.Proof.ReferenceRun
import proofs.«428095_j4475355922946_2_alg».proof.Proof.Bridge
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the same result array: the kernel's
    output array, which is the reference's result of the same arguments. -/
theorem algebraic : Cert.algebraic_KernelIdeal_ReferenceIdeal := by
  intro m ρ m' ρ' _ hagree
  refine ⟨fun c => Cert.KernelIdeal.Array.target m c, Cert.KernelIdeal.Array.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact Cert.Bridge.result_eq_target m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
